-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x4096 : Shape := ⟨2, ![512, 4096]⟩
abbrev S32x4096 : Shape := ⟨2, ![32, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : IVec S512x4096 32) (main_arg2 : FVec F S32x4096 .f32) (main_arg3 : FVec F S32x4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S512x4096 : Shape := ⟨2, ![512, 4096]⟩
abbrev S32x4096 : Shape := ⟨2, ![32, 4096]⟩
abbrev S4096 : Shape := ⟨1, ![4096]⟩
abbrev S1x4096 : Shape := ⟨2, ![1, 4096]⟩
abbrev S1024x1024 : Shape := ⟨2, ![1024, 1024]⟩
abbrev S128x512 : Shape := ⟨2, ![128, 512]⟩
abbrev S8x512 : Shape := ⟨2, ![8, 512]⟩
abbrev S1x512 : Shape := ⟨2, ![1, 512]⟩
abbrev S1024x512 : Shape := ⟨2, ![1024, 512]⟩
abbrev S1x8x1 : Shape := ⟨3, ![1, 8, 1]⟩
abbrev S128x1x512 : Shape := ⟨3, ![128, 1, 512]⟩
abbrev S128x8x512 : Shape := ⟨3, ![128, 8, 512]⟩
abbrev S8x128x512 : Shape := ⟨3, ![8, 128, 512]⟩
abbrev S8x1x512 : Shape := ⟨3, ![8, 1, 512]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S512x4096, .i32⟩
  | .hbm, ⟨2, _⟩ => ⟨S32x4096, .f32⟩
  | .hbm, ⟨3, _⟩ => ⟨S32x4096, .f32⟩
  | .hbm, ⟨4, _⟩ => ⟨S4096, .f32⟩
  | .hbm, ⟨5, _⟩ => ⟨S1x4096, .f32⟩
  | .hbm, ⟨6, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S128x512, .i32⟩
  | .local _ .vmem, ⟨3, _⟩ => ⟨S128x512, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_12 : BitVec 32 := 0#32
  let v36 : BitVec 1 := Scalar.cmpi .ne v35 c0_i32_12
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  iota_S1x8x1_d1_w32 : S1x8x1.Iotas .tc 32 [1]
  shapeCasts_S128x512_S128x1x512 : S128x512.ShapeCasts S128x1x512
  broadcasts_S128x1x512_S128x8x512 : S128x1x512.Broadcasts S128x8x512
  broadcasts_S1x8x1_S128x8x512 : S1x8x1.Broadcasts S128x8x512
  shapeCasts_S128x8x512_S1024x512 : S128x8x512.ShapeCasts S1024x512
  inb_S8x512_S8x512_0_0 : ∀ a, (![0, 0] : Fin 2 → Nat) a + S8x512.size a ≤ S8x512.size a
  h_S8x512 : 0 < S8x512.numel
  shapeCasts_S1024x512_S8x128x512 : S1024x512.ShapeCasts S8x128x512
  shapeCasts_S8x512_S8x1x512 : S8x512.ShapeCasts S8x1x512
  broadcasts_S8x1x512_S8x128x512 : S8x1x512.Broadcasts S8x128x512
  shapeCasts_S8x128x512_S1024x512 : S8x128x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x4096.size a
  hwx0_1 : ∀ i : grid0.Coords, EltTy.bits .i32 = 32 ∨ (Rect.block (s := S512x4096) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x4096.size a
  hwx0_3 : ∀ i : grid0.Coords, EltTy.bits .f32 = 32 ∨ (Rect.block (s := S32x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S512x4096 : Shape := ⟨2, ![512, 4096]⟩
abbrev S32x4096 : Shape := ⟨2, ![32, 4096]⟩
abbrev S4096 : Shape := ⟨1, ![4096]⟩
abbrev S8 : Shape := ⟨1, ![8]⟩
abbrev S_ : Shape := ⟨0, ![]⟩
abbrev S1x8x1 : Shape := ⟨3, ![1, 8, 1]⟩
abbrev S512x1x4096 : Shape := ⟨3, ![512, 1, 4096]⟩
abbrev S512x8x4096 : Shape := ⟨3, ![512, 8, 4096]⟩
abbrev S32x128x4096 : Shape := ⟨3, ![32, 128, 4096]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x4096, .i32⟩
  | .hbm, ⟨2, _⟩ => ⟨S32x4096, .f32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8x1, .i32⟩
  | .hbm, ⟨10, _⟩ => ⟨S512x1x4096, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S4096x4096, .f32⟩
  | .hbm, ⟨19, _⟩ => ⟨S32x128x4096, .f32⟩
  | .hbm, ⟨20, _⟩ => ⟨S4096x4096, .f32⟩
  | .hbm, ⟨21, _⟩ => ⟨S32x128x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S512x4096_S512x1x4096_0_2 : S512x4096.BroadcastsInDim S512x1x4096 (![0, 2] : Fin 2 → Fin S512x1x4096.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one visit of the kernel body leaves behind, case by case, as values.

  The body keeps a running [1024, 512] accumulator in scratch memory. At the first K step of an output block it stores
  the zero block and then adds that step's partial product to it; at a later K step it adds the step's partial product
  to what the step before left; at the last K step it also writes the accumulator plus the bias row into the output
  block. Each of these is one store that covers the whole buffer, so what the buffer holds afterwards is that store's
  payload: the update payload over the zero payload, the update payload over the carried value, and the bias payload
  over the update payload.
-/
import proofs.«418831_j55319178773088_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces
open Cert.KernelIdeal Cert.KernelIdeal.Gen

variable {F : FTy → Type} [FloatOps F]

/-- The offsets of a whole-buffer access are all zero. -/
theorem zero_offsets : (![0, 0] : Fin 2 → Nat) = fun _ => 0 := funext fun a => by fin_cases a <;> rfl

/-- First K step: the accumulator ends at the update of the zero block by this step's inputs. -/
theorem scratch_first (c : Dev nD) (i : grid0.Coords) (arg3 : Memref sig .tc .vmem S1024x1024 .f32) (harg3 : arg3.IsWhole) (arg4 : Memref sig .tc .vmem S128x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i) (x0 : Vec F S1024x1024 .f32) (x1 : Vec F S128x512 .i32) (x2 : Vec F S8x512 .f32) (x3 : Vec F S8x512 .f32) (x4 : Vec F S1x512 .f32) :
    sout0_A_0 c i arg3 harg3 arg4 harg4 arg5 harg5 arg6 harg6 arg7 harg7 arg8 harg8 arg9 harg9 hc0 hc1 x0 x1 x2 x3 x4 = k0_pay3 x1 x2 x3 x0 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x512) zero_offsets, View.readCov_unit_zero (S := S1024x512) _ zero_offsets]
  simp only [View.readAt_eq_ld, harg3.read_unread, harg4.read_unread, harg5.read_unread, harg6.read_unread,
    View.ld_unit_zero (S := S1024x1024) zero_offsets, View.ld_unit_zero (S := S128x512) zero_offsets,
    View.ld_unit_zero (S := S8x512) zero_offsets]

/-- A middle K step: the accumulator ends at the update of the carried value by this step's inputs. -/
theorem scratch_middle (c : Dev nD) (i : grid0.Coords) (arg3 : Memref sig .tc .vmem S1024x1024 .f32) (harg3 : arg3.IsWhole) (arg4 : Memref sig .tc .vmem S128x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i) (x0 : Vec F S1024x1024 .f32) (x1 : Vec F S128x512 .i32) (x2 : Vec F S8x512 .f32) (x3 : Vec F S8x512 .f32) (x4 : Vec F S1x512 .f32) (xs0 : Vec F S1024x512 .f32) :
    sout0_B_0 c i arg3 harg3 arg4 harg4 arg5 harg5 arg6 harg6 arg7 harg7 arg8 harg8 arg9 harg9 hc0 hc1 x0 x1 x2 x3 x4 xs0 = k0_pay3 x1 x2 x3 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S1024x512) zero_offsets]
  simp only [View.readAt_eq_ld, harg3.read_unread, harg4.read_unread, harg5.read_unread, harg6.read_unread, harg9.read_unread,
    View.ld_unit_zero (S := S1024x1024) zero_offsets, View.ld_unit_zero (S := S128x512) zero_offsets,
    View.ld_unit_zero (S := S8x512) zero_offsets, View.ld_unit_zero (S := S1024x512) zero_offsets]

/-- Last K step: the output block ends at the bias row added to the update of the carried value. -/
theorem out_last (c : Dev nD) (i : grid0.Coords) (arg3 : Memref sig .tc .vmem S1024x1024 .f32) (harg3 : arg3.IsWhole) (arg4 : Memref sig .tc .vmem S128x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i) (x0 : Vec F S1024x1024 .f32) (x1 : Vec F S128x512 .i32) (x2 : Vec F S8x512 .f32) (x3 : Vec F S8x512 .f32) (x4 : Vec F S1x512 .f32) (xs0 : Vec F S1024x512 .f32) :
    out0_C_5 c i arg3 harg3 arg4 harg4 arg5 harg5 arg6 harg6 arg7 harg7 arg8 harg8 arg9 harg9 hc0 hc1 x0 x1 x2 x3 x4 xs0 = k0_pay1 (k0_pay3 x1 x2 x3 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x512) zero_offsets]
  simp only [View.readAt_eq_ld, harg3.read_unread, harg4.read_unread, harg5.read_unread, harg6.read_unread, harg7.read_unread,
    harg9.read_unread, View.readCov_unit_zero (S := S1024x512) _ zero_offsets,
    View.ld_unit_zero (S := S1024x1024) zero_offsets, View.ld_unit_zero (S := S128x512) zero_offsets,
    View.ld_unit_zero (S := S8x512) zero_offsets, View.ld_unit_zero (S := S1024x512) zero_offsets,
    View.ld_unit_zero (S := S1x512) zero_offsets]

end Cert.KernelIdeal.Pieces

end
-- ==== Proof.Dequant.lean ====
/-
  The mathematics of a 4-bit weight-only quantized linear layer, with no program in sight.

  A packed word holds eight 4-bit fields; field j is the word shifted right by 4 j and masked with 15. Row k of the
  unpacked weight matrix is field k mod 8 of packed row k / 8. Each group of 128 consecutive rows shares one row of
  zero points and one row of scales: the dequantized weight is (field - zero point) * scale. The layer's output at
  (r, c) is the sum over k of x (r, k) times the dequantized weight (k, c), plus the bias at c.

  Two facts about sums and shifts are all the algebra the comparison needs. A sum over 4096 indices is the sum of its
  four consecutive stretches of 1024, taken in order from zero; this uses only that addition is commutative and
  associative, which holds on the extended reals, infinities included. And an arithmetic right shift by an amount below
  the word width is the same word whichever unit performs it; the amounts here are 4 j for j below 8.
-/
import Idealize.ShloMosaic.PureOps.Ideal
import Idealize.ShloMosaic.Lib.ValueIdx
import Mathlib.Algebra.BigOperators.Fin
import Mathlib.Data.Fintype.BigOperators
import Mathlib.Logic.Equiv.Fin.Basic

noncomputable section

open scoped BigOperators

namespace Cert.Dequant

open Idealize.ShloMosaic Idealize.ShloMosaic.ValueIdx

abbrev SAct : Shape := ⟨2, ![4096, 4096]⟩
abbrev SPacked : Shape := ⟨2, ![512, 4096]⟩
abbrev SGroup : Shape := ⟨2, ![32, 4096]⟩
abbrev SBias : Shape := ⟨1, ![4096]⟩

/-- Field `j` of a packed word: shifted right (arithmetically) by `4 j`, masked with 15. -/
def field (w j : BitVec 32) : BitVec 32 := IntOp.andi (IntOp.shrsi .host w (IntOp.muli j 4#32)) 15#32

/-- The dequantized weight at row `k`, column `c`. -/
def weight (pk : IVec SPacked 32) (sc zr : FVec Ideal SGroup .f32) (k c : Fin 4096) : EReal :=
  (FloatOps.sitofp (F := Ideal) .f32 (field (pk (ix2 (⟨k.val / 8, by have := k.isLt; omega⟩ : Fin 512) c)) (BitVec.ofNat 32 (k.val % 8)))
      - zr (ix2 (⟨k.val / 128, by have := k.isLt; omega⟩ : Fin 32) c))
    * sc (ix2 (⟨k.val / 128, by have := k.isLt; omega⟩ : Fin 32) c)

/-- The layer's output at row `r`, column `c`. -/
def outAt (x : FVec Ideal SAct .f32) (pk : IVec SPacked 32) (sc zr : FVec Ideal SGroup .f32) (b : FVec Ideal SBias .f32)
    (r c : Fin 4096) : EReal :=
  (∑ k : Fin 4096, x (ix2 r k) * weight pk sc zr k c) + b (ix1 c)

/-- The layer's output as an array. -/
def out (x : FVec Ideal SAct .f32) (pk : IVec SPacked 32) (sc zr : FVec Ideal SGroup .f32) (b : FVec Ideal SBias .f32) :
    FVec Ideal SAct .f32 := fun i => outAt x pk sc zr b (i 0) (i 1)

theorem out_apply (x : FVec Ideal SAct .f32) (pk : IVec SPacked 32) (sc zr : FVec Ideal SGroup .f32) (b : FVec Ideal SBias .f32)
    (r c : Fin 4096) : out x pk sc zr b (ix2 r c) = outAt x pk sc zr b r c := rfl

/-- A sum over 4096 indices is the sum, from zero and in order, of its four stretches of 1024. -/
theorem sum_four_stretches {M : Type*} [AddCommMonoid M] (f : Fin 4096 → M) :
    (((0 + ∑ l : Fin 1024, f ⟨l.val, by have := l.isLt; omega⟩) + ∑ l : Fin 1024, f ⟨1024 + l.val, by have := l.isLt; omega⟩)
        + ∑ l : Fin 1024, f ⟨2048 + l.val, by have := l.isLt; omega⟩) + ∑ l : Fin 1024, f ⟨3072 + l.val, by have := l.isLt; omega⟩
      = ∑ k : Fin 4096, f k := by
  rw [zero_add]
  have e : ∑ k : Fin 4096, f k = ∑ p : Fin 4 × Fin 1024, f (finProdFinEquiv p) :=
    (Equiv.sum_comp (finProdFinEquiv (m := 4) (n := 1024)) f).symm
  rw [e, Fintype.sum_prod_type, Fin.sum_univ_four]
  congr 1

/-- For `j` below 8 the amount `4 j` is below the word width, so the vector unit's arithmetic right shift is the host's. -/
theorem shift_units_agree (w : BitVec 32) (j : Fin 8) :
    IntOp.shrsi .vector w (IntOp.muli (BitVec.ofNat 32 j.val) 4#32) = IntOp.shrsi .host w (IntOp.muli (BitVec.ofNat 32 j.val) 4#32) := by
  have hlt : (IntOp.muli (BitVec.ofNat 32 j.val) 4#32).toNat < 32 := by
    revert j; decide
  unfold IntOp.shrsi
  rw [if_pos hlt, if_pos hlt]

end Cert.Dequant

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«418831_j55319178773088_1_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.Payloads.lean ====
/-
  The body's three payloads, read at an index at the ideal instance.

  The update payload first rebuilds the step's [1024, 512] block of dequantized weights from the step's [128, 512]
  block of packed words and its two [8, 512] blocks of scales and zero points: local row l is field l mod 8 of local
  packed row l / 8, and reads local group l / 128. It then adds to the carried accumulator the product of the step's
  [1024, 1024] block of activations with that block of weights; at the ideal instance the change of float format in
  front of the product is the identity and the product into a zero accumulator is the plain sum over the 1024 local
  rows. The zero payload is the zero block, and the bias payload adds the step's [1, 512] bias row to every row.
-/
import proofs.«418831_j55319178773088_1_alg».proof.Proof.Gen.KernelIdeal.Skeleton
import proofs.«418831_j55319178773088_1_alg».proof.Proof.Dequant
import proofs.«418831_j55319178773088_1_alg».proof.Proof.LibDotAt
import Idealize.ShloMosaic.Lib.Pipeline.Value
import Idealize.ShloMosaic.Lib.ValueLayout
import Idealize.ShloMosaic.Lib.IdealHost

noncomputable section

open scoped BigOperators

namespace Cert.KernelIdeal.Payloads

open Cert.KernelIdeal Cert.KernelIdeal.Gen Idealize.ShloMosaic Idealize.ShloMosaic.ValueIdx

/-! ## Where the body's reshapes and broadcasts read their operands -/

section layout
variable {α : Type}

/-- [128, 8, 512] flattened to [1024, 512]: row `l` is (l / 8, l mod 8). -/
theorem fields_to_rows (x : S128x8x512.Idx → α) (h : S128x8x512.ShapeCasts S1024x512) (l : Fin 1024) (q : Fin 512) :
    shapeCast S1024x512 x h (ix2 l q)
      = x (ix3 (⟨l.val / 8, by have := l.isLt; omega⟩ : Fin 128) (⟨l.val % 8, Nat.mod_lt _ (by decide)⟩ : Fin 8) q) := by
  refine shapeCast_apply x h _ _ ?_
  rw [Shape.rowMajor_val_three, Shape.rowMajor_val_two]
  have hl := l.isLt
  show (l.val / 8 * 8 + l.val % 8) * 512 + q.val = l.val * 512 + q.val
  omega

/-- [1024, 512] split into [8, 128, 512]: (g, r) is row 128 g + r. -/
theorem rows_to_groups (x : S1024x512.Idx → α) (h : S1024x512.ShapeCasts S8x128x512) (g : Fin 8) (r : Fin 128) (q : Fin 512) :
    shapeCast S8x128x512 x h (ix3 g r q) = x (ix2 (⟨g.val * 128 + r.val, by have := g.isLt; have := r.isLt; omega⟩ : Fin 1024) q) := by
  refine shapeCast_apply x h _ _ ?_
  rw [Shape.rowMajor_val_three, Shape.rowMajor_val_two]
  rfl

/-- [8, 128, 512] flattened to [1024, 512]: row `l` is (l / 128, l mod 128). -/
theorem groups_to_rows (x : S8x128x512.Idx → α) (h : S8x128x512.ShapeCasts S1024x512) (l : Fin 1024) (q : Fin 512) :
    shapeCast S1024x512 x h (ix2 l q)
      = x (ix3 (⟨l.val / 128, by have := l.isLt; omega⟩ : Fin 8) (⟨l.val % 128, Nat.mod_lt _ (by decide)⟩ : Fin 128) q) := by
  refine shapeCast_apply x h _ _ ?_
  rw [Shape.rowMajor_val_three, Shape.rowMajor_val_two]
  have hl := l.isLt
  show (l.val / 128 * 128 + l.val % 128) * 512 + q.val = l.val * 512 + q.val
  omega

/-- [128, 512] given a unit middle axis. -/
theorem packed_unit_axis (x : S128x512.Idx → α) (h : S128x512.ShapeCasts S128x1x512) (a : Fin 128) (u : Fin 1) (q : Fin 512) :
    shapeCast S128x1x512 x h (ix3 a u q) = x (ix2 a q) := by
  refine shapeCast_apply x h _ _ ?_
  rw [Shape.rowMajor_val_three, Shape.rowMajor_val_two]
  have hu := u.isLt
  show a.val * 512 + q.val = (a.val * 1 + u.val) * 512 + q.val
  omega

/-- [8, 512] given a unit middle axis. -/
theorem group_unit_axis (x : S8x512.Idx → α) (h : S8x512.ShapeCasts S8x1x512) (g : Fin 8) (u : Fin 1) (q : Fin 512) :
    shapeCast S8x1x512 x h (ix3 g u q) = x (ix2 g q) := by
  refine shapeCast_apply x h _ _ ?_
  rw [Shape.rowMajor_val_three, Shape.rowMajor_val_two]
  have hu := u.isLt
  show g.val * 512 + q.val = (g.val * 1 + u.val) * 512 + q.val
  omega

/-- The packed words repeated along the field axis. -/
theorem packed_repeat (x : S128x1x512.Idx → α) (h : S128x1x512.Broadcasts S128x8x512) (a : Fin 128) (j : Fin 8) (q : Fin 512) :
    broadcastTo S128x8x512 x h (ix3 a j q) = x (ix3 a (0 : Fin 1) q) := by
  refine broadcastTo_apply x h _ _ fun d => ?_
  match d with
  | ⟨0, _⟩ => show a.val = if (128 : Nat) = 1 then 0 else a.val; rw [if_neg (by decide)]
  | ⟨1, _⟩ => show 0 = if (1 : Nat) = 1 then 0 else j.val; rw [if_pos rfl]
  | ⟨2, _⟩ => show q.val = if (512 : Nat) = 1 then 0 else q.val; rw [if_neg (by decide)]

/-- The eight shift amounts repeated along the row and column axes. -/
theorem shifts_repeat (x : S1x8x1.Idx → α) (h : S1x8x1.Broadcasts S128x8x512) (a : Fin 128) (j : Fin 8) (q : Fin 512) :
    broadcastTo S128x8x512 x h (ix3 a j q) = x (ix3 (0 : Fin 1) j (0 : Fin 1)) := by
  refine broadcastTo_apply x h _ _ fun d => ?_
  match d with
  | ⟨0, _⟩ => show 0 = if (1 : Nat) = 1 then 0 else a.val; rw [if_pos rfl]
  | ⟨1, _⟩ => show j.val = if (8 : Nat) = 1 then 0 else j.val; rw [if_neg (by decide)]
  | ⟨2, _⟩ => show 0 = if (1 : Nat) = 1 then 0 else q.val; rw [if_pos rfl]

/-- A group's row repeated over the group's 128 rows. -/
theorem group_repeat (x : S8x1x512.Idx → α) (h : S8x1x512.Broadcasts S8x128x512) (g : Fin 8) (r : Fin 128) (q : Fin 512) :
    broadcastTo S8x128x512 x h (ix3 g r q) = x (ix3 g (0 : Fin 1) q) := by
  refine broadcastTo_apply x h _ _ fun d => ?_
  match d with
  | ⟨0, _⟩ => show g.val = if (8 : Nat) = 1 then 0 else g.val; rw [if_neg (by decide)]
  | ⟨1, _⟩ => show 0 = if (1 : Nat) = 1 then 0 else r.val; rw [if_pos rfl]
  | ⟨2, _⟩ => show q.val = if (512 : Nat) = 1 then 0 else q.val; rw [if_neg (by decide)]

end layout

/-! ## The block of dequantized weights -/

variable {F : FTy → Type} [FloatOps F]

/-- The step's [1024, 512] block of fields, as the body unpacks it from the step's packed block. -/
def fieldsBlock (v3 : Vec F S128x512 .i32) : IVec S1024x512 32 :=
  have v4 : IVec S1x8x1 32 := iota .tc S1x8x1 32 [1] iota_S1x8x1_d1_w32
  have v5 : IVec S1x8x1 32 := broadcast S1x8x1 4#32
  have v6 : IVec S1x8x1 32 := muli v4 v5
  have v7 : IVec S128x1x512 32 := shapeCast S128x1x512 v3 shapeCasts_S128x512_S128x1x512
  have v8 : IVec S128x8x512 32 := broadcastTo S128x8x512 v7 broadcasts_S128x1x512_S128x8x512
  have v9 : IVec S128x8x512 32 := broadcastTo S128x8x512 v6 broadcasts_S1x8x1_S128x8x512
  have v10 : IVec S128x8x512 32 := shrsi v8 v9
  have v11 : IVec S128x8x512 32 := broadcast S128x8x512 15#32
  have v12 : IVec S128x8x512 32 := andi v10 v11
  shapeCast S1024x512 v12 shapeCasts_S128x8x512_S1024x512

/-- The step's [1024, 512] block of dequantized weights, as the body forms it. -/
def weightsBlock (v3 : Vec F S128x512 .i32) (v15 v16 : Vec F S8x512 .f32) : FVec F S1024x512 .f32 :=
  have v14 : FVec F S1024x512 .f32 := sitofp .f32 (fieldsBlock (F := F) v3)
  have v17 : FVec F S8x128x512 .f32 := shapeCast S8x128x512 v14 shapeCasts_S1024x512_S8x128x512
  have v18 : FVec F S8x1x512 .f32 := shapeCast S8x1x512 v16 shapeCasts_S8x512_S8x1x512
  have v19 : FVec F S8x128x512 .f32 := broadcastTo S8x128x512 v18 broadcasts_S8x1x512_S8x128x512
  have v20 : FVec F S8x128x512 .f32 := subf v17 v19
  have v21 : FVec F S8x1x512 .f32 := shapeCast S8x1x512 v15 shapeCasts_S8x512_S8x1x512
  have v22 : FVec F S8x128x512 .f32 := broadcastTo S8x128x512 v21 broadcasts_S8x1x512_S8x128x512
  have v23 : FVec F S8x128x512 .f32 := mulf v20 v22
  shapeCast S1024x512 v23 shapeCasts_S8x128x512_S1024x512

/-- The update payload is the carried accumulator plus the product of the activations' block with the weights' block. -/
theorem update_eq (v3 : Vec F S128x512 .i32) (v15 v16 : Vec F S8x512 .f32) (v25 : Vec F S1024x1024 .f32) (v28 : Vec F S1024x512 .f32) :
    k0_pay3 v3 v15 v16 v25 v28
      = addf v28 (matmul dot_S1024x1024_S1024x512_S1024x512_1_0_0_1_n_n none (truncf .bf16 v25 bitsLt_bf16_f32)
          (truncf .bf16 (weightsBlock v3 v15 v16) bitsLt_bf16_f32) (constant S1024x512 .f32 0x00000000#32)) := by
  unfold k0_pay3 weightsBlock fieldsBlock
  exact shapeCast_self _ _

/-- Local row `l` of the block of fields is field `l mod 8` of local packed row `l / 8`. -/
theorem fieldsBlock_at (v3 : Vec F S128x512 .i32) (l : Fin 1024) (q : Fin 512) :
    fieldsBlock (F := F) v3 (ix2 l q)
      = Cert.Dequant.field (v3 (ix2 (⟨l.val / 8, by have := l.isLt; omega⟩ : Fin 128) q)) (BitVec.ofNat 32 (l.val % 8)) := by
  unfold fieldsBlock
  dsimp only
  rw [fields_to_rows]
  show IntOp.andi (IntOp.shrsi .vector
      (broadcastTo S128x8x512 (shapeCast S128x1x512 v3 shapeCasts_S128x512_S128x1x512) broadcasts_S128x1x512_S128x8x512
        (ix3 (⟨l.val / 8, _⟩ : Fin 128) (⟨l.val % 8, _⟩ : Fin 8) q))
      (broadcastTo S128x8x512 (muli (iota .tc S1x8x1 32 [1] iota_S1x8x1_d1_w32) (broadcast S1x8x1 4#32)) broadcasts_S1x8x1_S128x8x512
        (ix3 (⟨l.val / 8, _⟩ : Fin 128) (⟨l.val % 8, _⟩ : Fin 8) q))) 15#32 = _
  rw [packed_repeat, packed_unit_axis, shifts_repeat]
  show IntOp.andi (IntOp.shrsi .vector (v3 (ix2 (⟨l.val / 8, _⟩ : Fin 128) q))
      (IntOp.muli (iota .tc S1x8x1 32 [1] iota_S1x8x1_d1_w32 (ix3 (0 : Fin 1) (⟨l.val % 8, _⟩ : Fin 8) (0 : Fin 1))) 4#32)) 15#32 = _
  rw [iota_single_apply]
  exact congrArg (fun w => IntOp.andi w 15#32)
    (Cert.Dequant.shift_units_agree _ (⟨l.val % 8, Nat.mod_lt _ (by decide)⟩ : Fin 8))

/-- Local row `l` of the block of weights: (field - zero point) * scale, with the zero point and the scale of local group `l / 128`. -/
theorem weightsBlock_at (v3 : Vec Ideal S128x512 .i32) (v15 v16 : Vec Ideal S8x512 .f32) (l : Fin 1024) (q : Fin 512) :
    weightsBlock (F := Ideal) v3 v15 v16 (ix2 l q)
      = (FloatOps.sitofp (F := Ideal) .f32 (Cert.Dequant.field (v3 (ix2 (⟨l.val / 8, by have := l.isLt; omega⟩ : Fin 128) q)) (BitVec.ofNat 32 (l.val % 8)))
          - v16 (ix2 (⟨l.val / 128, by have := l.isLt; omega⟩ : Fin 8) q))
        * v15 (ix2 (⟨l.val / 128, by have := l.isLt; omega⟩ : Fin 8) q) := by
  unfold weightsBlock
  rw [groups_to_rows]
  rw [mulf_apply, subf_apply, rows_to_groups, group_repeat, group_unit_axis, group_repeat, group_unit_axis, sitofp_apply]
  have hrow : (⟨(⟨l.val / 128, by have := l.isLt; omega⟩ : Fin 8).val * 128 + (⟨l.val % 128, Nat.mod_lt _ (by decide)⟩ : Fin 128).val,
      by have := l.isLt; show l.val / 128 * 128 + l.val % 128 < 1024; omega⟩ : Fin 1024) = l :=
    Fin.ext (by show l.val / 128 * 128 + l.val % 128 = l.val; omega)
  rw [hrow, fieldsBlock_at]

/-! ## The three payloads at an index -/

/-- The update payload at (p, q): the carried value plus the sum over the 1024 local rows. -/
theorem update_at (v3 : Vec Ideal S128x512 .i32) (v15 v16 : Vec Ideal S8x512 .f32) (v25 : Vec Ideal S1024x1024 .f32)
    (v28 : Vec Ideal S1024x512 .f32) (p : Fin 1024) (q : Fin 512) :
    k0_pay3 (F := Ideal) v3 v15 v16 v25 v28 (ix2 p q)
      = v28 (ix2 p q) + ∑ l : Fin 1024, v25 (ix2 p l) * weightsBlock (F := Ideal) v3 v15 v16 (ix2 l q) := by
  rw [update_eq, addf_apply]
  congr 1
  exact Idealize.ShloMosaic.DotAt.matmul_plain dot_S1024x1024_S1024x512_S1024x512_1_0_0_1_n_n rfl rfl rfl rfl rfl rfl rfl rfl none
    (truncf .bf16 v25 bitsLt_bf16_f32) (truncf .bf16 (weightsBlock (F := Ideal) v3 v15 v16) bitsLt_bf16_f32) p q

/-- The zero payload is zero everywhere. -/
theorem zero_at (i : S1024x512.Idx) : k0_pay2 (F := Ideal) i = 0 := by
  unfold k0_pay2
  rw [shapeCast_self]
  exact Ideal.ofBits_zero_f32

/-- The bias payload at (p, q): the accumulator's entry plus the bias row's entry at column q. -/
theorem bias_at (v37 : Vec Ideal S1024x512 .f32) (v38 : Vec Ideal S1x512 .f32) (p : Fin 1024) (q : Fin 512) :
    k0_pay1 (F := Ideal) v37 v38 (ix2 p q) = v37 (ix2 p q) + v38 (ix2 (0 : Fin 1) q) := by
  unfold k0_pay1
  rw [shapeCast_self, addf_apply, broadcastTo_1b_ab_apply]

end Cert.KernelIdeal.Payloads

end
-- ==== Proof.Blocks.lean ====
/-
  What the kernel's input blocks at a grid point read from the arrays.

  The grid has 4 x 8 x 4 points, the last axis fastest: point t is row tile t / 32, column tile (t / 4) mod 8 and
  K step t mod 4. At that point the activations' block is rows 1024 (t / 32) + p and columns 1024 (t mod 4) + l of the
  activations; the packed block is rows 128 (t mod 4) + a and columns 512 ((t / 4) mod 8) + q of the packed words; the
  scales' and zero points' blocks are rows 8 (t mod 4) + g and those same columns; the bias block is those columns of
  the bias, which the host first views as one row.
-/
import proofs.«418831_j55319178773088_1_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The five input blocks at a point, and the five argument arrays, at their literal shapes. -/
abbrev actBlk (c : Dev nD) (t : Fin cfg0.N) : Vec F S1024x1024 .f32 := iblk m c 0 t
abbrev pkBlk (c : Dev nD) (t : Fin cfg0.N) : Vec F S128x512 .i32 := iblk m c 1 t
abbrev scBlk (c : Dev nD) (t : Fin cfg0.N) : Vec F S8x512 .f32 := iblk m c 2 t
abbrev zrBlk (c : Dev nD) (t : Fin cfg0.N) : Vec F S8x512 .f32 := iblk m c 3 t
abbrev biasBlk (c : Dev nD) (t : Fin cfg0.N) : Vec F S1x512 .f32 := iblk m c 4 t
abbrev actArr (c : Dev nD) : Vec F S4096x4096 .f32 := m ((c : Thread nD τ).loc main_arg0)
abbrev pkArr (c : Dev nD) : Vec F S512x4096 .i32 := m ((c : Thread nD τ).loc main_arg1)
abbrev scArr (c : Dev nD) : Vec F S32x4096 .f32 := m ((c : Thread nD τ).loc main_arg2)
abbrev zrArr (c : Dev nD) : Vec F S32x4096 .f32 := m ((c : Thread nD τ).loc main_arg3)
abbrev biasArr (c : Dev nD) : Vec F S4096 .f32 := m ((c : Thread nD τ).loc main_arg4)

/-- There are 128 grid points. -/
theorem point_lt (t : Fin cfg0.N) : t.val < 128 := lt_of_lt_of_eq t.isLt N_0

/-- The windows' block indices at point `t`, decided over the grid. -/
theorem index_facts : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = t.val % 4 ∧ win0_2.index t (1 : Fin 2) = t.val / 4 % 8
    ∧ win0_3.index t (0 : Fin 2) = t.val % 4 ∧ win0_3.index t (1 : Fin 2) = t.val / 4 % 8
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

/-- The activations' block. -/
theorem actBlk_at (c : Dev nD) (t : Fin cfg0.N) (p l : Fin 1024) (r k : Fin 4096)
    (hr : r.val = 1024 * (t.val / 32) + p.val) (hk : k.val = 1024 * (t.val % 4) + l.val) :
    actBlk m c t (ix2 p l) = actArr m c (ix2 r k) := by
  obtain ⟨e0, e1, -⟩ := index_facts t
  show ((cfg0.win 0).blk t).view.read (Elt F) (V m c (Pipeline.arrRef spec0 0)) (ix2 p l) = _
  rw [View.read_apply]
  show V m c main_arg0 _ = m ((c : Thread nD τ).loc main_arg0) _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * l.val = k.val; rw [e1, hk]; omega

/-- The packed words' block. -/
theorem pkBlk_at (c : Dev nD) (t : Fin cfg0.N) (a : Fin 128) (q : Fin 512) (r : Fin 512) (cc : Fin 4096)
    (hr : r.val = 128 * (t.val % 4) + a.val) (hc : cc.val = 512 * (t.val / 4 % 8) + q.val) :
    pkBlk m c t (ix2 a q) = pkArr m c (ix2 r cc) := by
  obtain ⟨-, -, e0, e1, -⟩ := index_facts t
  show ((cfg0.win 1).blk t).view.read (Elt F) (V m c (Pipeline.arrRef spec0 1)) (ix2 a q) = _
  rw [View.read_apply]
  show V m c main_arg1 _ = m ((c : Thread nD τ).loc main_arg1) _
  rw [V_main_arg1]
  congr 1
  funext d
  apply Fin.ext
  match d with
  | ⟨0, _⟩ => show win0_1.index t (0 : Fin 2) * 128 + 1 * a.val = r.val; rw [e0, hr]; omega
  | ⟨1, _⟩ => show win0_1.index t (1 : Fin 2) * 512 + 1 * q.val = cc.val; rw [e1, hc]; omega

/-- The scales' block. -/
theorem scBlk_at (c : Dev nD) (t : Fin cfg0.N) (g : Fin 8) (q : Fin 512) (r : Fin 32) (cc : Fin 4096)
    (hr : r.val = 8 * (t.val % 4) + g.val) (hc : cc.val = 512 * (t.val / 4 % 8) + q.val) :
    scBlk m c t (ix2 g q) = scArr m c (ix2 r cc) := by
  obtain ⟨-, -, -, -, e0, e1, -⟩ := index_facts t
  show ((cfg0.win 2).blk t).view.read (Elt F) (V m c (Pipeline.arrRef spec0 2)) (ix2 g q) = _
  rw [View.read_apply]
  show V m c main_arg2 _ = m ((c : Thread nD τ).loc main_arg2) _
  rw [V_main_arg2]
  congr 1
  funext d
  apply Fin.ext
  match d with
  | ⟨0, _⟩ => show win0_2.index t (0 : Fin 2) * 8 + 1 * g.val = r.val; rw [e0, hr]; omega
  | ⟨1, _⟩ => show win0_2.index t (1 : Fin 2) * 512 + 1 * q.val = cc.val; rw [e1, hc]; omega

/-- The zero points' block. -/
theorem zrBlk_at (c : Dev nD) (t : Fin cfg0.N) (g : Fin 8) (q : Fin 512) (r : Fin 32) (cc : Fin 4096)
    (hr : r.val = 8 * (t.val % 4) + g.val) (hc : cc.val = 512 * (t.val / 4 % 8) + q.val) :
    zrBlk m c t (ix2 g q) = zrArr m c (ix2 r cc) := by
  obtain ⟨-, -, -, -, -, -, e0, e1, -⟩ := index_facts t
  show ((cfg0.win 3).blk t).view.read (Elt F) (V m c (Pipeline.arrRef spec0 3)) (ix2 g q) = _
  rw [View.read_apply]
  show V m c main_arg3 _ = m ((c : Thread nD τ).loc main_arg3) _
  rw [V_main_arg3]
  congr 1
  funext d
  apply Fin.ext
  match d with
  | ⟨0, _⟩ => show win0_3.index t (0 : Fin 2) * 8 + 1 * g.val = r.val; rw [e0, hr]; omega
  | ⟨1, _⟩ => show win0_3.index t (1 : Fin 2) * 512 + 1 * q.val = cc.val; rw [e1, hc]; omega

/-- The bias as the region finds it: the host's view of it as one row. -/
theorem bias_row (c : Dev nD) :
    (V m c main_v0 : S1x4096.Idx → Elt F .f32) = shapeCast S1x4096 (biasArr m c) shapeCasts_S4096_S1x4096 := by
  dsimp only [V, hostOps0]
  after_results
  rfl

/-- The bias block. -/
theorem biasBlk_at (c : Dev nD) (t : Fin cfg0.N) (u : Fin 1) (q : Fin 512) (cc : Fin 4096)
    (hc : cc.val = 512 * (t.val / 4 % 8) + q.val) :
    biasBlk m c t (ix2 u q) = biasArr m c (ix1 cc) := by
  obtain ⟨-, -, -, -, -, -, -, -, e0, e1, -⟩ := index_facts t
  show ((cfg0.win 4).blk t).view.read (Elt F) (V m c (Pipeline.arrRef spec0 4)) (ix2 u q) = _
  rw [View.read_apply]
  show V m c main_v0 _ = _
  rw [bias_row]
  have hu : u.val = 0 := by have := u.isLt; omega
  have hidx : (((cfg0.win 4).blk t).view.emb (ix2 u q) : S1x4096.Idx) = ix2 (0 : Fin 1) cc := by
    funext d
    apply Fin.ext
    match d with
    | ⟨0, _⟩ => show win0_4.index t (0 : Fin 2) * 1 + 1 * u.val = 0; rw [e0, hu]
    | ⟨1, _⟩ => show win0_4.index t (1 : Fin 2) * 512 + 1 * q.val = cc.val; rw [e1, hc]; omega
  rw [hidx, shapeCast_a_1a_apply]

end Cert.KernelIdeal.Blocks

end
-- ==== Proof.KernelValue.lean ====
/-
  The kernel's result array is the quantized linear layer's output.

  An output block (row tile i, column tile j) is visited at four consecutive grid points, one per K step. After the
  first the scratch accumulator holds 0 + D0, after the next two (0 + D0) + D1 and ((0 + D0) + D1) + D2, where Da is
  the sum over the 1024 local rows of step a of the activations' block times the dequantized weights' block; the
  last step writes (((0 + D0) + D1) + D2) + D3 plus the bias row into the output block, and only that point writes the
  block back. Step a's blocks are rows 1024 a + l of the K axis, so Da is the a-th stretch of 1024 terms of the sum over
  all 4096 rows, and the four stretches in order make up that sum. Every index of the [4096, 4096] result lies in the
  block of exactly such a last point, so the array ends holding the layer's output everywhere.
-/
import proofs.«418831_j55319178773088_1_alg».proof.Proof.Gen.KernelIdeal.Value
import proofs.«418831_j55319178773088_1_alg».proof.Proof.Pieces
import proofs.«418831_j55319178773088_1_alg».proof.Proof.Payloads
import proofs.«418831_j55319178773088_1_alg».proof.Proof.Blocks
import proofs.«418831_j55319178773088_1_alg».proof.Proof.Dequant
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Blocks Cert.KernelIdeal.Payloads Idealize.ShloMosaic.ValueIdx

/-! ## One K step's blocks against the arrays, with no program in sight -/

/-- The four blocks `xb`, `pb`, `sb`, `zb` are K step `a`'s blocks of the arrays `X`, `P`, `S`, `Z` for row tile `i` and column tile `j`. -/
structure StepOf (X : Vec Ideal S4096x4096 .f32) (P : Vec Ideal S512x4096 .i32) (S Z : Vec Ideal S32x4096 .f32) (i j a : Nat)
    (xb : Vec Ideal S1024x1024 .f32) (pb : Vec Ideal S128x512 .i32) (sb zb : Vec Ideal S8x512 .f32) : Prop where
  act : ∀ (p l : Fin 1024) (r k : Fin 4096), r.val = 1024 * i + p.val → k.val = 1024 * a + l.val → xb (ix2 p l) = X (ix2 r k)
  packed : ∀ (e : Fin 128) (q : Fin 512) (r : Fin 512) (cc : Fin 4096), r.val = 128 * a + e.val → cc.val = 512 * j + q.val →
    pb (ix2 e q) = P (ix2 r cc)
  scale : ∀ (g : Fin 8) (q : Fin 512) (r : Fin 32) (cc : Fin 4096), r.val = 8 * a + g.val → cc.val = 512 * j + q.val →
    sb (ix2 g q) = S (ix2 r cc)
  zero : ∀ (g : Fin 8) (q : Fin 512) (r : Fin 32) (cc : Fin 4096), r.val = 8 * a + g.val → cc.val = 512 * j + q.val →
    zb (ix2 g q) = Z (ix2 r cc)

/-- Local row `l` of step `a`'s block of weights is row `1024 a + l` of the dequantized weight matrix. -/
theorem weight_of_step {X : Vec Ideal S4096x4096 .f32} {P : Vec Ideal S512x4096 .i32} {S Z : Vec Ideal S32x4096 .f32} {i j a : Nat}
    {xb : Vec Ideal S1024x1024 .f32} {pb : Vec Ideal S128x512 .i32} {sb zb : Vec Ideal S8x512 .f32}
    (H : StepOf X P S Z i j a xb pb sb zb) (l : Fin 1024) (q : Fin 512) (k cc : Fin 4096)
    (hk : k.val = 1024 * a + l.val) (hc : cc.val = 512 * j + q.val) :
    weightsBlock (F := Ideal) pb sb zb (ix2 l q) = Cert.Dequant.weight P S Z k cc := by
  have hl := l.isLt
  rw [weightsBlock_at]
  unfold Cert.Dequant.weight
  rw [H.packed (⟨l.val / 8, by omega⟩ : Fin 128) q (⟨k.val / 8, by have := k.isLt; omega⟩ : Fin 512) cc
      (by show k.val / 8 = 128 * a + l.val / 8; omega) hc,
    H.zero (⟨l.val / 128, by omega⟩ : Fin 8) q (⟨k.val / 128, by have := k.isLt; omega⟩ : Fin 32) cc
      (by show k.val / 128 = 8 * a + l.val / 128; omega) hc,
    H.scale (⟨l.val / 128, by omega⟩ : Fin 8) q (⟨k.val / 128, by have := k.isLt; omega⟩ : Fin 32) cc
      (by show k.val / 128 = 8 * a + l.val / 128; omega) hc,
    show l.val % 8 = k.val % 8 by omega]

/-- Step `a`'s partial product at (p, q) is the `a`-th stretch of 1024 terms of the whole contraction at (r, cc). -/
theorem stretch_of_step {X : Vec Ideal S4096x4096 .f32} {P : Vec Ideal S512x4096 .i32} {S Z : Vec Ideal S32x4096 .f32} {i j a : Nat}
    {xb : Vec Ideal S1024x1024 .f32} {pb : Vec Ideal S128x512 .i32} {sb zb : Vec Ideal S8x512 .f32}
    (H : StepOf X P S Z i j a xb pb sb zb) (p : Fin 1024) (q : Fin 512) (r cc : Fin 4096)
    (hr : r.val = 1024 * i + p.val) (hc : cc.val = 512 * j + q.val) (g : Fin 1024 → Fin 4096) (hg : ∀ l, (g l).val = 1024 * a + l.val) :
    ∑ l : Fin 1024, xb (ix2 p l) * weightsBlock (F := Ideal) pb sb zb (ix2 l q)
      = ∑ l : Fin 1024, X (ix2 r (g l)) * Cert.Dequant.weight P S Z (g l) cc :=
  Finset.sum_congr rfl fun l _ => by rw [H.act p l r (g l) hr (hg l), weight_of_step H l q (g l) cc (hg l) hc]

/-- The last step's output at (p, q), from the four steps' blocks and the bias block: the layer's output at (r, cc). -/
theorem last_step_value (X : Vec Ideal S4096x4096 .f32) (P : Vec Ideal S512x4096 .i32) (S Z : Vec Ideal S32x4096 .f32)
    (B : Vec Ideal S4096 .f32) (i j : Nat)
    (x0 x1 x2 x3 : Vec Ideal S1024x1024 .f32) (p0 p1 p2 p3 : Vec Ideal S128x512 .i32) (s0 s1 s2 s3 z0 z1 z2 z3 : Vec Ideal S8x512 .f32)
    (bb : Vec Ideal S1x512 .f32)
    (H0 : StepOf X P S Z i j 0 x0 p0 s0 z0) (H1 : StepOf X P S Z i j 1 x1 p1 s1 z1)
    (H2 : StepOf X P S Z i j 2 x2 p2 s2 z2) (H3 : StepOf X P S Z i j 3 x3 p3 s3 z3)
    (p : Fin 1024) (q : Fin 512) (r cc : Fin 4096) (hr : r.val = 1024 * i + p.val) (hc : cc.val = 512 * j + q.val)
    (hb : bb (ix2 (0 : Fin 1) q) = B (ix1 cc)) :
    k0_pay1 (F := Ideal) (k0_pay3 p3 s3 z3 x3 (k0_pay3 p2 s2 z2 x2 (k0_pay3 p1 s1 z1 x1 (k0_pay3 p0 s0 z0 x0 (k0_pay2 (F := Ideal)))))) bb (ix2 p q)
      = Cert.Dequant.outAt X P S Z B r cc := by
  rw [bias_at, update_at, update_at, update_at, update_at, zero_at, hb]
  rw [stretch_of_step H0 p q r cc hr hc (fun l => ⟨l.val, by have := l.isLt; omega⟩) (fun l => by show l.val = 1024 * 0 + l.val; omega),
    stretch_of_step H1 p q r cc hr hc (fun l => ⟨1024 + l.val, by have := l.isLt; omega⟩) (fun l => by show 1024 + l.val = 1024 * 1 + l.val; omega),
    stretch_of_step H2 p q r cc hr hc (fun l => ⟨2048 + l.val, by have := l.isLt; omega⟩) (fun l => by show 2048 + l.val = 1024 * 2 + l.val; omega),
    stretch_of_step H3 p q r cc hr hc (fun l => ⟨3072 + l.val, by have := l.isLt; omega⟩) (fun l => by show 3072 + l.val = 1024 * 3 + l.val; omega)]
  unfold Cert.Dequant.outAt
  congr 1
  exact Cert.Dequant.sum_four_stretches (fun k => X (ix2 r k) * Cert.Dequant.weight P S Z k cc)

/-! ## The run's contents, point by point -/

variable (m : (ℓ : Loc nD τ sig) → Buf (Elt Ideal) ℓ) (ρ : Dev nD → PrngReg)

/-- The layer's output of the argument arrays, as contents of the result array. -/
abbrev result (c : Dev nD) : Buf (Elt Ideal) ((c : Thread nD τ).loc main_v1) :=
  Cert.Dequant.out (actArr m c) (pkArr m c) (scArr m c) (zrArr m c) (biasArr m c)

/-- The point before. -/
abbrev prev (t : Fin cfg0.N) : Fin cfg0.N := ⟨t.val - 1, Nat.lt_of_le_of_lt (Nat.sub_le _ _) t.isLt⟩

/-- After a first K step the accumulator is that step's update of the zero block. -/
theorem scratch_after_first (c : Dev nD) (s : Fin cfg0.N) (h0 : s.val % 4 = 0) :
    (outsAt0 m c s.val s.isLt).2 = k0_pay3 (pkBlk m c s) (scBlk m c s) (zrBlk m c s) (actBlk m c s) (k0_pay2 (F := Ideal)) := by
  have h1 : ¬s.val % 4 = 3 := by omega
  rw [outsAt0_A m c s h0 h1]
  dsimp only
  exact Pieces.scratch_first c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) ((hcond0_0 s).mpr h0) (fun h => h1 ((hcond0_1 s).mp h)) (iblk m c 0 s) (iblk m c 1 s) (iblk m c 2 s) (iblk m c 3 s) (iblk m c 4 s)

/-- After a middle K step the accumulator is that step's update of what the point before left. -/
theorem scratch_after_middle (c : Dev nD) (s : Fin cfg0.N) (h0 : ¬s.val % 4 = 0) (h1 : ¬s.val % 4 = 3) :
    (outsAt0 m c s.val s.isLt).2
      = k0_pay3 (pkBlk m c s) (scBlk m c s) (zrBlk m c s) (actBlk m c s) (outsAt0 m c (s.val - 1) (Nat.lt_of_le_of_lt (Nat.sub_le _ _) s.isLt)).2 := by
  rw [outsAt0_B m c s h0 h1]
  dsimp only
  exact Pieces.scratch_middle c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) (fun h => h0 ((hcond0_0 s).mp h)) (fun h => h1 ((hcond0_1 s).mp h)) (iblk m c 0 s) (iblk m c 1 s) (iblk m c 2 s) (iblk m c 3 s) (iblk m c 4 s)
    (outsAt0 m c (s.val - 1) (Nat.lt_of_le_of_lt (Nat.sub_le _ _) s.isLt)).2

/-- Before a last K step the accumulator holds the three earlier steps' updates of the zero block, in order. -/
theorem carried_eq (c : Dev nD) (t : Fin cfg0.N) (h3 : t.val % 4 = 3) :
    (outsAt0 m c (t.val - 1) (Nat.lt_of_le_of_lt (Nat.sub_le _ _) t.isLt)).2
      = k0_pay3 (pkBlk m c (prev t)) (scBlk m c (prev t)) (zrBlk m c (prev t)) (actBlk m c (prev t)) (k0_pay3 (pkBlk m c (prev (prev t))) (scBlk m c (prev (prev t))) (zrBlk m c (prev (prev t))) (actBlk m c (prev (prev t)))
          (k0_pay3 (pkBlk m c (prev (prev (prev t)))) (scBlk m c (prev (prev (prev t)))) (zrBlk m c (prev (prev (prev t)))) (actBlk m c (prev (prev (prev t)))) (k0_pay2 (F := Ideal)))) := by
  have e2 := scratch_after_middle m c (prev t) (by show ¬(t.val - 1) % 4 = 0; omega) (by show ¬(t.val - 1) % 4 = 3; omega)
  have e1 := scratch_after_middle m c (prev (prev t)) (by show ¬(t.val - 1 - 1) % 4 = 0; omega) (by show ¬(t.val - 1 - 1) % 4 = 3; omega)
  have e0 := scratch_after_first m c (prev (prev (prev t))) (by show (t.val - 1 - 1 - 1) % 4 = 0; omega)
  exact e2.trans (congrArg (k0_pay3 (pkBlk m c (prev t)) (scBlk m c (prev t)) (zrBlk m c (prev t)) (actBlk m c (prev t)))
    (e1.trans (congrArg (k0_pay3 (pkBlk m c (prev (prev t))) (scBlk m c (prev (prev t))) (zrBlk m c (prev (prev t))) (actBlk m c (prev (prev t)))) e0)))

/-- The blocks at a point are that point's K step's blocks of the argument arrays. -/
theorem stepOf_point (c : Dev nD) (s : Fin cfg0.N) (i j a : Nat) (hi : s.val / 32 = i) (hj : s.val / 4 % 8 = j) (ha : s.val % 4 = a) :
    StepOf (actArr m c) (pkArr m c) (scArr m c) (zrArr m c) i j a (actBlk m c s) (pkBlk m c s) (scBlk m c s) (zrBlk m c s) := by
  subst hi hj ha
  exact ⟨fun p l r k hr hk => actBlk_at m c s p l r k hr hk, fun e q r cc hr hc => pkBlk_at m c s e q r cc hr hc,
    fun g q r cc hr hc => scBlk_at m c s g q r cc hr hc, fun g q r cc hr hc => zrBlk_at m c s g q r cc hr hc⟩

/-- What a last K step writes back is its block of the layer's output. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have h0 : ¬t.val % 4 = 0 := by omega
  have hN := point_lt t
  obtain ⟨-, -, -, -, -, -, -, -, -, -, e0, e1⟩ := index_facts t
  rw [Value.flushed5_C m c t h0 h3,
    Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t)
      (outsAt0 m c (t.val - 1) (Nat.lt_of_le_of_lt (Nat.sub_le _ _) t.isLt)).2,
    carried_eq m c t h3]
  funext y
  rw [View.read_apply]
  have hy0 : (y 0).val < 1024 := (y 0).isLt
  have hy1 : (y 1).val < 512 := (y 1).isLt
  have hx : (cfg0.win 5).xinj (grid0.coords t) y = ix2 (⟨(y 0).val, hy0⟩ : Fin 1024) (⟨(y 1).val, hy1⟩ : Fin 512) := by
    funext a
    apply Fin.ext
    match a with
    | ⟨0, _⟩ => rfl
    | ⟨1, _⟩ => rfl
  have hemb : (((cfg0.win 5).blk t).view.emb y : S4096x4096.Idx)
      = ix2 (⟨1024 * (t.val / 32) + (y 0).val, by omega⟩ : Fin 4096) (⟨512 * (t.val / 4 % 8) + (y 1).val, by omega⟩ : Fin 4096) := by
    funext a
    apply Fin.ext
    match a with
    | ⟨0, _⟩ => show win0_5.index t (0 : Fin 2) * 1024 + 1 * (y 0).val = 1024 * (t.val / 32) + (y 0).val; rw [e0]; omega
    | ⟨1, _⟩ => show win0_5.index t (1 : Fin 2) * 512 + 1 * (y 1).val = 512 * (t.val / 4 % 8) + (y 1).val; rw [e1]; omega
  show k0_pay1 (F := Ideal) (k0_pay3 (pkBlk m c t) (scBlk m c t) (zrBlk m c t) (actBlk m c t) (k0_pay3 (pkBlk m c (prev t)) (scBlk m c (prev t)) (zrBlk m c (prev t)) (actBlk m c (prev t)) (k0_pay3 (pkBlk m c (prev (prev t))) (scBlk m c (prev (prev t))) (zrBlk m c (prev (prev t))) (actBlk m c (prev (prev t)))
      (k0_pay3 (pkBlk m c (prev (prev (prev t)))) (scBlk m c (prev (prev (prev t)))) (zrBlk m c (prev (prev (prev t)))) (actBlk m c (prev (prev (prev t)))) (k0_pay2 (F := Ideal)))))) (biasBlk m c t) ((cfg0.win 5).xinj (grid0.coords t) y)
    = result m c (((cfg0.win 5).blk t).view.emb y)
  rw [hx, hemb]
  exact last_step_value (actArr m c) (pkArr m c) (scArr m c) (zrArr m c) (biasArr m c) (t.val / 32) (t.val / 4 % 8)
    (actBlk m c (prev (prev (prev t)))) (actBlk m c (prev (prev t))) (actBlk m c (prev t)) (actBlk m c t)
    (pkBlk m c (prev (prev (prev t)))) (pkBlk m c (prev (prev t))) (pkBlk m c (prev t)) (pkBlk m c t)
    (scBlk m c (prev (prev (prev t)))) (scBlk m c (prev (prev t))) (scBlk m c (prev t)) (scBlk m c t)
    (zrBlk m c (prev (prev (prev t)))) (zrBlk m c (prev (prev t))) (zrBlk m c (prev t)) (zrBlk m c t)
    (biasBlk m c t)
    (stepOf_point m c (prev (prev (prev t))) _ _ 0 (by show (t.val - 1 - 1 - 1) / 32 = t.val / 32; omega)
      (by show (t.val - 1 - 1 - 1) / 4 % 8 = t.val / 4 % 8; omega) (by show (t.val - 1 - 1 - 1) % 4 = 0; omega))
    (stepOf_point m c (prev (prev t)) _ _ 1 (by show (t.val - 1 - 1) / 32 = t.val / 32; omega)
      (by show (t.val - 1 - 1) / 4 % 8 = t.val / 4 % 8; omega) (by show (t.val - 1 - 1) % 4 = 1; omega))
    (stepOf_point m c (prev t) _ _ 2 (by show (t.val - 1) / 32 = t.val / 32; omega)
      (by show (t.val - 1) / 4 % 8 = t.val / 4 % 8; omega) (by show (t.val - 1) % 4 = 2; omega))
    (stepOf_point m c t _ _ 3 rfl rfl h3)
    (⟨(y 0).val, hy0⟩ : Fin 1024) (⟨(y 1).val, hy1⟩ : Fin 512) _ _ rfl rfl
    (biasBlk_at m c t (0 : Fin 1) (⟨(y 1).val, hy1⟩ : Fin 512) _ rfl)

/-- Every index of the result lies in the block of a last K step: row tile r / 1024, column tile c / 512. -/
theorem covered (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  let t : Fin cfg0.N := ⟨(i 0).val / 1024 * 32 + (i 1).val / 512 * 4 + 3, by rw [show cfg0.N = 128 from N_0]; omega⟩
  have ht : t.val = (i 0).val / 1024 * 32 + (i 1).val / 512 * 4 + 3 := rfl
  obtain ⟨-, -, -, -, -, -, -, -, -, -, e0, e1⟩ := index_facts t
  refine ⟨t, (flush0_5 t).mpr (by omega), ?_⟩
  show i ∈ ((View.whole main_v1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 512 ≤ (i 1).val ∧ (i 1).val < win0_5.index t (1 : Fin 2) * 512 + 512
    rw [e1]; omega

/-- The result array after the run is the layer's output. -/
theorem final (c : Dev nD) : (dats m 0 c).arrAt 5 cfg0.N = result m c :=
  (dats m 0 c).arrAt_eq_of_cover 5 (result m c) (flushed_eq m c) covered

/-- The run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RefValue

end
-- ==== Proof.RefSide.lean ====
/-
  The reference program computes the quantized linear layer.

  Read one operation at a time, the reference unpacks the whole [512, 4096] array of packed words into a [512, 8, 4096]
  array of fields (the word at (k / 8, c) shifted by 4 (k mod 8) and masked), reshapes it to [4096, 4096] (row k is field
  k mod 8 of packed row k / 8), repeats each row of zero points and scales 128 times (row k reads group k / 128),
  forms (field - zero point) * scale, contracts the activations with that matrix over k and adds the bias row. Index
  by index that is the layer's output: the only work is to say where each reshape and broadcast reads its operand.
-/
import proofs.«418831_j55319178773088_1_alg».proof.Proof.Gen.ReferenceIdeal.Read
import proofs.«418831_j55319178773088_1_alg».proof.Proof.Dequant

noncomputable section

open scoped BigOperators

namespace Cert.ReferenceIdeal.RefValue

open Cert.ReferenceIdeal Cert.ReferenceIdeal.Gen Cert.ReferenceIdeal.Read Idealize.ShloMosaic Idealize.ShloMosaic.ValueIdx

/-- Row `k` of the unpacked matrix reads packed row `k / 8`. -/
theorem packed_index (k c : Fin 4096) :
    idx_main_v4 (idx_main_v5 (idx_main_v10 (ix2 k c))) = ix2 (⟨k.val / 8, by have := k.isLt; omega⟩ : Fin 512) c := by
  funext a; apply Fin.ext
  have hk := k.isLt; have hc := c.isLt
  match a with
  | ⟨0, _⟩ => show (k.val * 4096 + c.val) / 32768 = k.val / 8; omega
  | ⟨1, _⟩ => show (k.val * 4096 + c.val) % 4096 = c.val; omega

/-- Row `k` of the unpacked matrix reads field `k mod 8`. -/
theorem field_index (k c : Fin 4096) :
    ((idx_main_v3 (idx_main_v6 (idx_main_v10 (ix2 k c)))) 0).val = k.val % 8 := by
  have hk := k.isLt; have hc := c.isLt
  show (k.val * 4096 + c.val) / 4096 % 8 = k.val % 8; omega

/-- Row `k` of the repeated zero points reads group `k / 128`. -/
theorem zero_point_index (k c : Fin 4096) :
    idx_main_v14 (idx_main_v15 (ix2 k c)) = ix2 (⟨k.val / 128, by have := k.isLt; omega⟩ : Fin 32) c := by
  funext a; apply Fin.ext
  have hk := k.isLt; have hc := c.isLt
  match a with
  | ⟨0, _⟩ => show (k.val * 4096 + c.val) / 524288 = k.val / 128; omega
  | ⟨1, _⟩ => show (k.val * 4096 + c.val) % 4096 = c.val; omega

/-- Row `k` of the repeated scales reads group `k / 128`. -/
theorem scale_index (k c : Fin 4096) :
    idx_main_v12 (idx_main_v13 (ix2 k c)) = ix2 (⟨k.val / 128, by have := k.isLt; omega⟩ : Fin 32) c := by
  funext a; apply Fin.ext
  have hk := k.isLt; have hc := c.isLt
  match a with
  | ⟨0, _⟩ => show (k.val * 4096 + c.val) / 524288 = k.val / 128; omega
  | ⟨1, _⟩ => show (k.val * 4096 + c.val) % 4096 = c.val; omega

/-- The matrix the reference contracts with is the dequantized weight matrix. -/
theorem weight_eq (x1 : (⟨S512x4096, .i32⟩ : BufTy).Contents (Elt Ideal)) (x2 x3 : (⟨S32x4096, .f32⟩ : BufTy).Contents (Elt Ideal))
    (k c : Fin 4096) : val_main_v17 (F := Ideal) x1 x2 x3 (ix2 k c) = Cert.Dequant.weight x1 x2 x3 k c := by
  rw [val_main_v17_apply, val_main_v16_apply, val_main_v11_apply, val_main_v10_apply, val_main_v9_apply, val_main_v7_apply,
    val_main_v5_apply, val_main_v4_apply, val_main_v6_apply, val_main_v3_apply, val_main_v2_apply, val_main_v0_apply,
    val_main_v1_apply, val_main_c_apply, val_main_v8_apply, val_main_c_0_apply, val_main_v15_apply, val_main_v14_apply,
    val_main_v13_apply, val_main_v12_apply]
  rw [packed_index k c, field_index k c, zero_point_index k c, scale_index k c]
  rfl

/-- The reference's result is the layer's output, index by index. -/
theorem result_eq (x0 : (⟨S4096x4096, .f32⟩ : BufTy).Contents (Elt Ideal)) (x1 : (⟨S512x4096, .i32⟩ : BufTy).Contents (Elt Ideal))
    (x2 x3 : (⟨S32x4096, .f32⟩ : BufTy).Contents (Elt Ideal)) (x4 : (⟨S4096, .f32⟩ : BufTy).Contents (Elt Ideal)) :
    val_main_v21 (F := Ideal) x0 x1 x2 x3 x4 = Cert.Dequant.out x0 x1 x2 x3 x4 := by
  funext i
  obtain ⟨r, c, rfl⟩ : ∃ (r c : Fin 4096), i = ix2 r c := ⟨i 0, i 1, eq_ix2 i⟩
  rw [val_main_v21_apply, val_main_v18_apply, val_main_v20_apply, val_main_v19_apply, Cert.Dequant.out_apply]
  show (∑ k : Fin 4096, x0 (lidx_main_v18 (ix2 r c) k) * val_main_v17 (F := Ideal) x1 x2 x3 (ridx_main_v18 (ix2 r c) k))
      + x4 (idx_main_v19 (idx_main_v20 (ix2 r c))) = _
  unfold Cert.Dequant.outAt
  congr 1
  · refine Finset.sum_congr rfl fun k _ => ?_
    have el : lidx_main_v18 (ix2 r c) k = ix2 r k := funext fun a => Fin.ext (by
      match a with
      | ⟨0, _⟩ => rfl
      | ⟨1, _⟩ => rfl)
    have er : ridx_main_v18 (ix2 r c) k = ix2 k c := funext fun a => Fin.ext (by
      match a with
      | ⟨0, _⟩ => rfl
      | ⟨1, _⟩ => rfl)
    rw [el, er, weight_eq]
  · exact congrArg x4 (funext fun a => Fin.ext (by
      match a with
      | ⟨0, _⟩ => rfl))

end Cert.ReferenceIdeal.RefValue

end
-- ==== Proof.lean ====
/-
  A 4-bit weight-only quantized linear layer: the tiled kernel against the plain reference, over the extended reals.

  Both programs unpack eight 4-bit fields from each packed word (shift right by 4 j, mask with 15), turn a field into a
  weight as (field - zero point) * scale with one zero point and one scale per group of 128 rows, contract the
  activations with the weights over the 4096 rows, and add the bias. The reference does it on whole arrays. The kernel
  tiles the output into 1024 x 512 blocks and the contraction into four K steps of 1024 rows, keeps the running sum in
  scratch memory (zeroed at the first step), and adds the bias at the last step. At the ideal instance the bf16
  conversions in front of the matrix unit are the identity and a product into a zero accumulator is the plain sum, so
  the kernel's entry is (((0 + D0) + D1) + D2) + D3 + bias with Da the a-th stretch of 1024 terms of the reference's sum
  over 4096 rows: equal because addition of extended reals is commutative and associative, with no appeal to
  finiteness. The shift is by at most 28, below the word width, where the two units' arithmetic shifts are one word.

  The frames are the generated ones; the reference's frame is its generated run with the result dropped; the ideal pass
  rewrote nothing, so the kernel's idealization is the kernel's own text.
-/
import proofs.«418831_j55319178773088_1_alg».proof.Defs
import proofs.«418831_j55319178773088_1_alg».proof.Proof.Gen.Kernel
import proofs.«418831_j55319178773088_1_alg».proof.Proof.Gen.Kernel.Skeleton
import proofs.«418831_j55319178773088_1_alg».proof.Proof.Gen.Kernel.Launch
import proofs.«418831_j55319178773088_1_alg».proof.Proof.Gen.Kernel.Points
import proofs.«418831_j55319178773088_1_alg».proof.Proof.Gen.Kernel.Frame
import proofs.«418831_j55319178773088_1_alg».proof.Proof.Gen.KernelIdeal
import proofs.«418831_j55319178773088_1_alg».proof.Proof.Gen.KernelIdeal.Skeleton
import proofs.«418831_j55319178773088_1_alg».proof.Proof.Gen.KernelIdeal.Launch
import proofs.«418831_j55319178773088_1_alg».proof.Proof.Gen.KernelIdeal.Points
import proofs.«418831_j55319178773088_1_alg».proof.Proof.Gen.KernelIdeal.Frame
import proofs.«418831_j55319178773088_1_alg».proof.Proof.Gen.ReferenceIdeal
import proofs.«418831_j55319178773088_1_alg».proof.Proof.Gen.Pre_finite_inputs
import proofs.«418831_j55319178773088_1_alg».proof.Proof.Gen.KernelIdeal.Value
import proofs.«418831_j55319178773088_1_alg».proof.Proof.Gen.ReferenceIdeal.Run
import proofs.«418831_j55319178773088_1_alg».proof.Proof.Gen.ReferenceIdeal.Read
import proofs.«418831_j55319178773088_1_alg».proof.Proof.KernelValue
import proofs.«418831_j55319178773088_1_alg».proof.Proof.RefSide
import Idealize.ShloMosaic.Adequacy
import Idealize.ShloMosaic.Init

noncomputable section

namespace Cert.Proof

open Idealize.ShloMosaic Idealize.SL.Sem

/-- Both idealized programs, run from memories that agree on the five arguments, end with the layer's output of those
    arguments in their result arrays. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v21 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [Cert.ReferenceIdeal.RefValue.result_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
